-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S2048x512 : Shape := ⟨2, ![2048, 512]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x2048.size a
  hwx0_0 : ∀ i : grid0.Coords, EltTy.bits .f32 = 32 ∨ (Rect.block (s := S8192x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Linear.lean ====
/-
  The linear layer `out = x · Wᵀ + b` over the extended reals, entry by entry, and the one law its two
  computations differ by: a dot product of length 2048 taken in four consecutive chunks of 512, each added
  to a running total that starts at zero, is the dot product taken at once. Sums over a finite index set in
  a commutative additive monoid regroup freely, so nothing here asks the entries to be finite.
-/
import Idealize.ShloMosaic.PureOps.Ideal
import Idealize.ShloMosaic.Lib.ValueIdx

noncomputable section

open scoped BigOperators

namespace Cert.Linear

open Idealize.ShloMosaic Idealize.ShloMosaic.ValueIdx

/-- The activations, the weights and the bias as index-to-value functions over their literal shapes. -/
abbrev XArr := (⟨2, ![8192, 2048]⟩ : Shape).Idx → EReal
abbrev WArr := (⟨2, ![2048, 2048]⟩ : Shape).Idx → EReal
abbrev BArr := (⟨1, ![2048]⟩ : Shape).Idx → EReal

/-- Entry (R, j) of the layer: row `R` of `x` against row `j` of `W`, plus `b j`. -/
def layer (x : XArr) (w : WArr) (b : BArr) : (⟨2, ![8192, 2048]⟩ : Shape).Idx → EReal :=
  fun i => (∑ κ : Fin 2048, x (ix2 (i 0) κ) * w (ix2 (i 1) κ)) + b (ix1 (i 1))

/-- The κ-th product of row `R` of `x` with row `j` of `W`, as a function of a natural number (zero past the
    row's end, which no sum below reaches). -/
def term (x : XArr) (w : WArr) (R : Fin 8192) (j : Fin 2048) (κ : ℕ) : EReal :=
  if h : κ < 2048 then x (ix2 R ⟨κ, h⟩) * w (ix2 j ⟨κ, h⟩) else 0

theorem term_of_lt (x : XArr) (w : WArr) (R : Fin 8192) (j : Fin 2048) (κ : ℕ) (h : κ < 2048) :
    term x w R j κ = x (ix2 R ⟨κ, h⟩) * w (ix2 j ⟨κ, h⟩) := dif_pos h

/-- The dot product's first `n` products. -/
def partialDot (x : XArr) (w : WArr) (R : Fin 8192) (j : Fin 2048) (n : ℕ) : EReal :=
  ∑ κ ∈ Finset.range n, term x w R j κ

/-- Adding the chunk of 512 products that starts at `n` extends the partial dot product by 512 places. -/
theorem partialDot_add_chunk (x : XArr) (w : WArr) (R : Fin 8192) (j : Fin 2048) (n : ℕ) :
    partialDot x w R j n + ∑ κ : Fin 512, term x w R j (n + κ.val) = partialDot x w R j (n + 512) := by
  unfold partialDot
  rw [Finset.sum_range_add, Fin.sum_univ_eq_sum_range (fun κ => term x w R j (n + κ)) 512]

/-- The first chunk over a zero total. -/
theorem zero_add_chunk (x : XArr) (w : WArr) (R : Fin 8192) (j : Fin 2048) :
    (0 : EReal) + ∑ κ : Fin 512, term x w R j (0 + κ.val) = partialDot x w R j 512 := by
  have h := partialDot_add_chunk x w R j 0
  rw [show partialDot x w R j 0 = 0 from Finset.sum_range_zero _] at h
  exact h

/-- All 2048 products are the dot product. -/
theorem partialDot_full (x : XArr) (w : WArr) (R : Fin 8192) (j : Fin 2048) :
    partialDot x w R j 2048 = ∑ κ : Fin 2048, x (ix2 R κ) * w (ix2 j κ) := by
  unfold partialDot
  rw [← Fin.sum_univ_eq_sum_range (fun κ => term x w R j κ) 2048]
  exact Finset.sum_congr rfl fun κ _ => term_of_lt x w R j κ.val κ.isLt

end Cert.Linear

end
-- ==== Proof.RefLayer.lean ====
/-
  The reference computes the layer. Its five host operations are a transpose of `W`, a `dot_general` contracting
  `x`'s second axis with the transposed `W`'s first, two broadcasts of `b` (to a row, then down the rows) and an
  add. Read at an index (R, j): the transpose swaps the two coordinates, so the product's κ-th term is
  `x (R, κ) · W (j, κ)`; the broadcasts read `b` at `j`. That is `Cert.Linear.layer` entry by entry.
-/
import proofs.«115215_j21251498180729_1_alg».proof.Proof.Gen.ReferenceIdeal.Read
import proofs.«115215_j21251498180729_1_alg».proof.Proof.Linear

noncomputable section

open scoped BigOperators

namespace Cert.ReferenceIdeal.Layer

open Cert.ReferenceIdeal Cert.ReferenceIdeal.Read Idealize.ShloMosaic Idealize.ShloMosaic.ValueIdx

/-- The left factor's index at output (R, j) and position κ is (R, κ). -/
theorem lidx_eq (i : S8192x2048.Idx) (κ : Fin 2048) : lidx_main_v1 i κ = ix2 (i 0) κ :=
  funext fun a => by match a with | ⟨0, _⟩ => rfl | ⟨1, _⟩ => rfl

/-- The right factor is read through the transpose: position (κ, j) of `Wᵀ` is (j, κ) of `W`. -/
theorem ridx_eq (i : S8192x2048.Idx) (κ : Fin 2048) : idx_main_v0 (ridx_main_v1 i κ) = ix2 (i 1) κ :=
  funext fun a => by match a with | ⟨0, _⟩ => rfl | ⟨1, _⟩ => rfl

/-- The two broadcasts read the bias at the column. -/
theorem bidx_eq (i : S8192x2048.Idx) : idx_main_v2 (idx_main_v3 i) = ix1 (i 1) :=
  funext fun a => by match a with | ⟨0, _⟩ => rfl

/-- The reference's result, as a function of its three arguments, is the layer. -/
theorem result_eq (x : Cert.Linear.XArr) (w : Cert.Linear.WArr) (b : Cert.Linear.BArr) :
    val_main_v4 (F := Ideal) x w b = Cert.Linear.layer x w b := by
  funext i
  rw [val_main_v4_apply, val_main_v1_apply, val_main_v3_apply, val_main_v2_apply]
  simp only [val_main_v0_apply, lidx_eq, ridx_eq, bidx_eq]
  rfl

end Cert.ReferenceIdeal.Layer

end
-- ==== Proof.Pieces.lean ====
/-
  What one run of the body leaves behind, as values of the blocks it was handed.
  At a grid point with k = 0 the body zeroes the accumulator and then adds the point's block product to it; at
  k = 1, 2 it adds the block product to what the point before left; at k = 3 it does the same and then writes the
  accumulator plus the bias row to the output block. Each buffer ends covered by the body's last whole-buffer store,
  so what it holds is that store's value, with every load of the accumulator that follows a store in the same run
  reading that store's value.
-/
import proofs.«115215_j21251498180729_1_alg».proof.Proof.Gen.KernelIdeal.Frame
import Idealize.ShloMosaic.Lib.Pipeline.Value
import Idealize.ShloMosaic.Lib.Tactic

noncomputable section

namespace Cert.KernelIdeal.Layer

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- k = 0: the accumulator ends at the step's value over the reset's zero. -/
theorem scratch_first (c : Dev nD) (i : grid0.Coords) (a2 : Memref sig .tc .vmem S512x512 .f32) (h2 : a2.IsWhole) (a3 : Memref sig .tc .vmem S2048x512 .f32) (h3 : a3.IsWhole) (a4 : Memref sig .tc .vmem S1x2048 .f32) (h4 : a4.IsWhole) (a5 : Memref sig .tc .vmem S512x2048 .f32) (h5 : a5.IsWhole) (a6 : Memref sig .tc .vmem S512x2048 .f32) (h6 : a6.IsWhole) (hc0 : cond0_0 i) (hc1 : ¬cond0_1 i)
    (x0 : Vec F S512x512 .f32) (x1 : Vec F S2048x512 .f32) (x2 : Vec F S1x2048 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x2048) hz, View.readCov_unit_zero (S := S512x2048) _ hz]
  simp only [View.readAt_eq_ld, h2.read_unread, h3.read_unread, View.ld_unit_zero (S := S512x512) hz,
    View.ld_unit_zero (S := S2048x512) hz]

/-- k = 1, 2: the accumulator ends at the step's value over what it held. -/
theorem scratch_middle (c : Dev nD) (i : grid0.Coords) (a2 : Memref sig .tc .vmem S512x512 .f32) (h2 : a2.IsWhole) (a3 : Memref sig .tc .vmem S2048x512 .f32) (h3 : a3.IsWhole) (a4 : Memref sig .tc .vmem S1x2048 .f32) (h4 : a4.IsWhole) (a5 : Memref sig .tc .vmem S512x2048 .f32) (h5 : a5.IsWhole) (a6 : Memref sig .tc .vmem S512x2048 .f32) (h6 : a6.IsWhole) (hc0 : ¬cond0_0 i) (hc1 : ¬cond0_1 i)
    (x0 : Vec F S512x512 .f32) (x1 : Vec F S2048x512 .f32) (x2 : Vec F S1x2048 .f32) (acc : Vec F S512x2048 .f32) :
    sout0_B_0 c i a2 h2 a3 h3 a4 h4 a5 h5 a6 h6 hc0 hc1 x0 x1 x2 acc = k0_pay2 x0 x1 acc := by
  unfold sout0_B_0
  rw [View.read_writes_eq_canon _ _ _ (scover0_B_0 c i a2 h2 a3 h3 a4 h4 a5 h5 a6 h6 hc0 hc1 x0 x1 x2 acc)]
  unfold kernelRun0_B
  dsimp only
  sl_unfold_words
  rw [View.canon_unit_zero hz]
  simp only [View.readAt_eq_ld, h2.read_unread, h3.read_unread, h6.read_unread, View.ld_unit_zero (S := S512x512) hz,
    View.ld_unit_zero (S := S2048x512) hz, View.ld_unit_zero (S := S512x2048) hz]

/-- k = 3: the accumulator ends the same way, -/
theorem scratch_last (c : Dev nD) (i : grid0.Coords) (a2 : Memref sig .tc .vmem S512x512 .f32) (h2 : a2.IsWhole) (a3 : Memref sig .tc .vmem S2048x512 .f32) (h3 : a3.IsWhole) (a4 : Memref sig .tc .vmem S1x2048 .f32) (h4 : a4.IsWhole) (a5 : Memref sig .tc .vmem S512x2048 .f32) (h5 : a5.IsWhole) (a6 : Memref sig .tc .vmem S512x2048 .f32) (h6 : a6.IsWhole) (hc0 : ¬cond0_0 i) (hc1 : cond0_1 i)
    (x0 : Vec F S512x512 .f32) (x1 : Vec F S2048x512 .f32) (x2 : Vec F S1x2048 .f32) (acc : Vec F S512x2048 .f32) :
    sout0_C_0 c i a2 h2 a3 h3 a4 h4 a5 h5 a6 h6 hc0 hc1 x0 x1 x2 acc = k0_pay2 x0 x1 acc := by
  unfold sout0_C_0
  rw [View.read_writes_eq_canon _ _ _ (scover0_C_0 c i a2 h2 a3 h3 a4 h4 a5 h5 a6 h6 hc0 hc1 x0 x1 x2 acc)]
  unfold kernelRun0_C
  dsimp only
  sl_unfold_words
  rw [View.canon_unit_zero hz]
  simp only [View.readAt_eq_ld, h2.read_unread, h3.read_unread, h6.read_unread, View.ld_unit_zero (S := S512x512) hz,
    View.ld_unit_zero (S := S2048x512) hz, View.ld_unit_zero (S := S512x2048) hz]

/-- and the output block ends at that accumulator plus the bias row. -/
theorem out_last (c : Dev nD) (i : grid0.Coords) (a2 : Memref sig .tc .vmem S512x512 .f32) (h2 : a2.IsWhole) (a3 : Memref sig .tc .vmem S2048x512 .f32) (h3 : a3.IsWhole) (a4 : Memref sig .tc .vmem S1x2048 .f32) (h4 : a4.IsWhole) (a5 : Memref sig .tc .vmem S512x2048 .f32) (h5 : a5.IsWhole) (a6 : Memref sig .tc .vmem S512x2048 .f32) (h6 : a6.IsWhole) (hc0 : ¬cond0_0 i) (hc1 : cond0_1 i)
    (x0 : Vec F S512x512 .f32) (x1 : Vec F S2048x512 .f32) (x2 : Vec F S1x2048 .f32) (acc : Vec F S512x2048 .f32) :
    out0_C_3 c i a2 h2 a3 h3 a4 h4 a5 h5 a6 h6 hc0 hc1 x0 x1 x2 acc = k0_pay3 (k0_pay2 x0 x1 acc) x2 := by
  unfold out0_C_3
  rw [View.read_writes_eq_canon _ _ _ (cover0_C_3 c i a2 h2 a3 h3 a4 h4 a5 h5 a6 h6 hc0 hc1 x0 x1 x2 acc)]
  unfold kernelRun0_C
  dsimp only
  sl_unfold_words
  rw [View.canon_unit_zero hz]
  simp only [View.readCov_unit_zero (S := S512x2048) _ hz, View.readAt_eq_ld, h2.read_unread, h3.read_unread,
    h4.read_unread, h6.read_unread, View.ld_unit_zero (S := S512x512) hz, View.ld_unit_zero (S := S2048x512) hz,
    View.ld_unit_zero (S := S512x2048) hz, View.ld_unit_zero (S := S1x2048) hz]

end Cert.KernelIdeal.Layer

end
-- ==== Proof.AtPoint.lean ====
/-
  What the accumulator and the output block hold after each grid point, by the point's place in its run of four.
  A point with k = 0 leaves the accumulator at the step's value over zero; a later point leaves it at the step's
  value over what the point before left; a point with k = 3 also leaves the output block at that accumulator plus
  the bias row.
-/
import proofs.«115215_j21251498180729_1_alg».proof.Proof.Pieces

noncomputable section

namespace Cert.KernelIdeal.Layer

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The three input blocks of a grid point, under their literal types. -/
abbrev xblk (c : Dev nD) (t : Fin cfg0.N) : Vec F S512x512 .f32 := iblk m c 0 t
abbrev wblk (c : Dev nD) (t : Fin cfg0.N) : Vec F S2048x512 .f32 := iblk m c 1 t
abbrev bblk (c : Dev nD) (t : Fin cfg0.N) : Vec F S1x2048 .f32 := iblk m c 2 t

/-- The accumulator after point `n`. -/
abbrev accAfter (c : Dev nD) (n : ℕ) (h : n < cfg0.N) : Vec F S512x2048 .f32 := (outsAt0 m c n h).2

theorem pred_lt (t : Fin cfg0.N) : t.val - 1 < cfg0.N := Nat.lt_of_le_of_lt (Nat.sub_le _ _) t.isLt

/-- After a point with k = 0. -/
theorem acc_first (c : Dev nD) (t : Fin cfg0.N) (h0 : t.val % 4 = 0) :
    accAfter m c t.val t.isLt = k0_pay2 (xblk m c t) (wblk m c t) (k0_pay1 (F := F)) := by
  have h1 : ¬t.val % 4 = 3 := by omega
  unfold accAfter
  rw [outsAt0_A m c t h0 h1]
  dsimp only
  exact scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a point with k ≠ 0. -/
theorem acc_later (c : Dev nD) (t : Fin cfg0.N) (h0 : ¬t.val % 4 = 0) :
    accAfter m c t.val t.isLt = k0_pay2 (xblk m c t) (wblk m c t) (accAfter m c (t.val - 1) (pred_lt t)) := by
  unfold accAfter
  by_cases h1 : t.val % 4 = 3
  · rw [outsAt0_C m c t h0 h1]
    dsimp only
    exact scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (pred_lt t)).2
  · rw [outsAt0_B m c t h0 h1]
    dsimp only
    exact scratch_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (pred_lt t)).2

/-- The output block after a point with k = 3. -/
theorem out_at_last (c : Dev nD) (t : Fin cfg0.N) (h1 : t.val % 4 = 3) :
    (outsAt0 m c t.val t.isLt).1
      = k0_pay3 (k0_pay2 (xblk m c t) (wblk m c t) (accAfter m c (t.val - 1) (pred_lt t))) (bblk m c t) := by
  have h0 : ¬t.val % 4 = 0 := by omega
  rw [outsAt0_C m c t h0 h1]
  dsimp only
  exact out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (pred_lt t)).2

end Cert.KernelIdeal.Layer

end
-- ==== Proof.Blocks.lean ====
/-
  The blocks the body is handed, as entries of the whole arguments.
  Grid point `t` is (i, k) = (t / 4, t % 4). The activation block there is rows 512·i … 512·i + 511 and columns
  512·k … 512·k + 511 of `x`; the weight block is all 2048 rows and columns 512·k … 512·k + 511 of `W`; the bias
  block is the whole one-row array the host made of `b` before the launch, whose entry (0, j) is `b j`.
-/
import proofs.«115215_j21251498180729_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Layer

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## Where each window's block sits, decided once over the 64 grid points -/

theorem xblock_at : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem wblock_at : ∀ t : Fin cfg0.N, win0_1.index t (0 : Fin 2) = 0 ∧ win0_1.index t (1 : Fin 2) = t.val % 4 :=
  (by decide +kernel : ∀ t : Fin grid0.N, win0_1.index t (0 : Fin 2) = 0 ∧ win0_1.index t (1 : Fin 2) = t.val % 4)
theorem bblock_at : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem oblock_at : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

theorem point_lt (t : Fin cfg0.N) : t.val < 64 := lt_of_lt_of_eq t.isLt (show cfg0.N = 64 from N_0)

/-- Row `r` of the row block of grid point `t`, as a row of `x`. -/
abbrev rowOf (t : Fin cfg0.N) (r : Fin 512) : Fin 8192 := ⟨512 * (t.val / 4) + r.val, by have := point_lt t; omega⟩
/-- Position `κ` of the chunk of grid point `t`, as a position along the contracted axis. -/
abbrev posOf (t : Fin cfg0.N) (κ : Fin 512) : Fin 2048 := ⟨512 * (t.val % 4) + κ.val, by omega⟩

/-! ## The three input blocks at an entry -/

theorem xblk_apply (c : Dev nD) (t : Fin cfg0.N) (r κ : Fin 512) :
    (iblk m c 0 t : Vec F S512x512 .f32) (ix2 r κ)
      = m ((c : Thread nD τ).loc main_arg0) (ix2 (rowOf t r) (posOf t κ)) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val / 4) + r.val; rw [(xblock_at t).1]; omega
  | ⟨1, _⟩ => show win0_0.index t 1 * 512 + 1 * κ.val = 512 * (t.val % 4) + κ.val; rw [(xblock_at t).2]; omega

theorem wblk_apply (c : Dev nD) (t : Fin cfg0.N) (j : Fin 2048) (κ : Fin 512) :
    (iblk m c 1 t : Vec F S2048x512 .f32) (ix2 j κ)
      = m ((c : Thread nD τ).loc main_arg1) (ix2 j (posOf t κ)) := by
  unfold iblk
  rw [View.read_apply]
  show V m c main_arg1 _ = _
  rw [V_main_arg1]
  congr 1
  funext a
  apply Fin.ext
  match a with
  | ⟨0, _⟩ => show win0_1.index t 0 * 2048 + 1 * j.val = j.val; rw [(wblock_at t).1]; omega
  | ⟨1, _⟩ => show win0_1.index t 1 * 512 + 1 * κ.val = 512 * (t.val % 4) + κ.val; rw [(wblock_at t).2]; omega

/-- The one-row array the host makes of `b` before the launch. -/
theorem bias_row (c : Dev nD) :
    (V m c main_v0 : S1x2048.Idx → Elt F .f32)
      = shapeCast S1x2048 (m ((c : Thread nD τ).loc main_arg2)) shapeCasts_S2048_S1x2048 := by
  dsimp only [V, hostOps0]
  after_results
  rfl

theorem bblk_apply (c : Dev nD) (t : Fin cfg0.N) (j : Fin 2048) :
    (iblk m c 2 t : Vec F S1x2048 .f32) (ix2 0 j) = m ((c : Thread nD τ).loc main_arg2) (ix1 j) := by
  unfold iblk
  rw [View.read_apply]
  show (V m c main_v0 : S1x2048.Idx → Elt F .f32) _ = _
  rw [bias_row]
  refine (congrArg _ ?_).trans (shapeCast_a_1a_apply _ shapeCasts_S2048_S1x2048 0 j)
  funext a
  apply Fin.ext
  match a with
  | ⟨0, _⟩ => show win0_2.index t 0 * 1 + 1 * 0 = 0; rw [(bblock_at t).1]
  | ⟨1, _⟩ => show win0_2.index t 1 * 2048 + 1 * j.val = j.val; rw [(bblock_at t).2]; omega

end Cert.KernelIdeal.Layer

end
-- ==== Proof.Stored.lean ====
/-
  What the body stores, read at one entry, over the extended reals.
  The reset stores zero. The accumulation step stores, at (r, j), what the accumulator held there plus the
  512-term dot product of row `r` of the activation block with row `j` of the weight block (the matrix product
  contracts the second axis of both operands, and is taken into a zero accumulator; the narrowing of both operands
  to a shorter float format does not change an extended real). The last step stores the accumulator plus the bias
  row, the same at every row `r`.
-/
import proofs.«115215_j21251498180729_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Layer

open Cert.KernelIdeal Cert.KernelIdeal.Gen Idealize.ShloMosaic Idealize.ShloMosaic.ValueIdx

/-! ## The matrix product's operand indices -/

theorem lhs_mm_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_mm_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_mm_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_mm_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The product of a [512, 512] block with a [2048, 512] block, both contracted along their second axis, into a
    zero accumulator: entry (r, j) is the dot product of row `r` of the first with row `j` of the second. -/
theorem matmul_rows (x : FVec Ideal S512x512 .bf16) (w : FVec Ideal S2048x512 .bf16) (r : Fin 512) (j : Fin 2048) :
    matmul dot_S512x512_S2048x512_S512x2048_1_1_0_0_n_n none x w (constant S512x2048 .f32 0x00000000#32) (ix2 r j)
      = ∑ κ : Fin 512, x (ix2 r κ) * w (ix2 j κ) := by
  show FloatOps.matmul dot_S512x512_S2048x512_S512x2048_1_1_0_0_n_n none x w (constant S512x2048 .f32 0x00000000#32) (ix2 r j) = _
  rw [Ideal.matmul_constant_zero_apply, ← Equiv.sum_comp (contrEquiv1 dot_S512x512_S2048x512_S512x2048_1_1_0_0_n_n 512 rfl rfl).symm]
  refine Finset.sum_congr rfl fun κ _ => ?_
  have hκ := contrEquiv1_symm_val dot_S512x512_S2048x512_S512x2048_1_1_0_0_n_n 512 rfl rfl κ
  have el : dot_S512x512_S2048x512_S512x2048_1_1_0_0_n_n.lhsIdx (ix2 r j) ((contrEquiv1 dot_S512x512_S2048x512_S512x2048_1_1_0_0_n_n 512 rfl rfl).symm κ) = ix2 r κ := funext fun a => Fin.ext (by
    match a with
    | ⟨0, _⟩ => exact lhs_mm_0 _ _
    | ⟨1, _⟩ => exact (lhs_mm_1 _ _).trans hκ)
  have er : dot_S512x512_S2048x512_S512x2048_1_1_0_0_n_n.rhsIdx (ix2 r j) ((contrEquiv1 dot_S512x512_S2048x512_S512x2048_1_1_0_0_n_n 512 rfl rfl).symm κ) = ix2 j κ := funext fun a => Fin.ext (by
    match a with
    | ⟨0, _⟩ => exact rhs_mm_0 _ _
    | ⟨1, _⟩ => exact (rhs_mm_1 _ _).trans hκ)
  rw [el, er]

/-! ## The three stored values at an entry -/

/-- The reset's value: zero everywhere. -/
theorem reset_apply (r : Fin 512) (j : Fin 2048) : k0_pay1 (F := Ideal) (ix2 r j) = 0 := by
  unfold k0_pay1
  rw [shapeCast_self]
  show Ideal.ofBits .f32 0x00000000#32 = 0
  exact Ideal.ofBits_zero_f32

/-- The accumulation step's value: the accumulator plus the two blocks' row-by-row dot product. -/
theorem step_apply (x : Vec Ideal S512x512 .f32) (w : Vec Ideal S2048x512 .f32) (acc : Vec Ideal S512x2048 .f32)
    (r : Fin 512) (j : Fin 2048) :
    k0_pay2 x w acc (ix2 r j) = acc (ix2 r j) + ∑ κ : Fin 512, x (ix2 r κ) * w (ix2 j κ) := by
  unfold k0_pay2
  simp only [shapeCast_self]
  rw [addf_apply, matmul_rows]
  rfl

/-- The last step's value: the accumulator plus the bias row read at the column. -/
theorem bias_apply (acc : Vec Ideal S512x2048 .f32) (b : Vec Ideal S1x2048 .f32) (r : Fin 512) (j : Fin 2048) :
    k0_pay3 acc b (ix2 r j) = acc (ix2 r j) + b (ix2 0 j) := by
  unfold k0_pay3
  rw [shapeCast_self]
  show acc (ix2 r j) + broadcastTo S512x2048 b broadcasts_S1x2048_S512x2048 (ix2 r j) = _
  rw [broadcastTo_apply b broadcasts_S1x2048_S512x2048 (ix2 r j) (ix2 0 j) (fun a => by
    match a with
    | ⟨0, _⟩ => show 0 = if (1 : Nat) = 1 then 0 else _; rw [if_pos rfl]
    | ⟨1, _⟩ => show j.val = if (2048 : Nat) = 1 then 0 else j.val; rw [if_neg (by decide)])]

end Cert.KernelIdeal.Layer

end
-- ==== Proof.Acc.lean ====
/-
  The accumulator is a partial dot product.
  After grid point n = 4·i + k the accumulator's entry (r, j) is the dot product of row 512·i + r of `x` with row
  `j` of `W` over positions 0 … 512·(k + 1) − 1: a point with k = 0 starts it from zero with the first chunk, and a
  later point extends what the point before left by its own chunk (same row block, next 512 positions). By induction
  on the point. After a point with k = 3 all 2048 positions are in, and the output block is that plus the bias.
-/
import proofs.«115215_j21251498180729_1_alg».proof.Proof.AtPoint
import proofs.«115215_j21251498180729_1_alg».proof.Proof.Blocks
import proofs.«115215_j21251498180729_1_alg».proof.Proof.Stored
import proofs.«115215_j21251498180729_1_alg».proof.Proof.Linear

noncomputable section

open scoped BigOperators

namespace Cert.KernelIdeal.Layer

open Cert.KernelIdeal Cert.KernelIdeal.Gen Idealize.ShloMosaic Idealize.ShloMosaic.TcCoe Idealize.ShloMosaic.ValueIdx Idealize.SL.Sem
open Cert.Linear

variable (m : (ℓ : Loc nD τ sig) → Buf (Elt Ideal) ℓ)

/-- The three arguments as launched, under the specification's types. -/
abbrev xarr (c : Dev nD) : XArr := m ((c : Thread nD τ).loc main_arg0)
abbrev warr (c : Dev nD) : WArr := m ((c : Thread nD τ).loc main_arg1)
abbrev barr (c : Dev nD) : BArr := m ((c : Thread nD τ).loc main_arg2)

/-- A point's block product at (r, j) is the chunk of the dot product of its row of `x` with row `j` of `W` that
    starts at position 512·k. -/
theorem chunk_eq (c : Dev nD) (t : Fin cfg0.N) (r : Fin 512) (j : Fin 2048) :
    ∑ κ : Fin 512, xblk m c t (ix2 r κ) * wblk m c t (ix2 j κ)
      = ∑ κ : Fin 512, term (xarr m c) (warr m c) (rowOf t r) j (512 * (t.val % 4) + κ.val) := by
  refine Finset.sum_congr rfl fun κ _ => ?_
  rw [term_of_lt _ _ _ _ _ (by have := κ.isLt; omega)]
  exact congrArg₂ (· * ·) (xblk_apply m c t r κ) (wblk_apply m c t j κ)

/-- A point with k = 0 leaves the first chunk. -/
theorem acc_eq_first (c : Dev nD) (t : Fin cfg0.N) (h0 : t.val % 4 = 0) (r : Fin 512) (j : Fin 2048) :
    accAfter m c t.val t.isLt (ix2 r j)
      = partialDot (xarr m c) (warr m c) (rowOf t r) j (512 * (t.val % 4) + 512) := by
  rw [acc_first m c t h0]
  refine (step_apply (xblk m c t) (wblk m c t) (k0_pay1 (F := Ideal)) r j).trans ?_
  rw [reset_apply, chunk_eq]
  have e : 512 * (t.val % 4) = 0 := by omega
  rw [e]
  exact zero_add_chunk _ _ _ _

/-- A later point extends what the point before left by its chunk. -/
theorem acc_eq_later (c : Dev nD) (t : Fin cfg0.N) (h0 : ¬t.val % 4 = 0) (r : Fin 512) (j : Fin 2048)
    (ih : accAfter m c (t.val - 1) (pred_lt t) (ix2 r j)
      = partialDot (xarr m c) (warr m c) (rowOf ⟨t.val - 1, pred_lt t⟩ r) j (512 * ((t.val - 1) % 4) + 512)) :
    accAfter m c t.val t.isLt (ix2 r j)
      = partialDot (xarr m c) (warr m c) (rowOf t r) j (512 * (t.val % 4) + 512) := by
  rw [acc_later m c t h0]
  refine (step_apply (xblk m c t) (wblk m c t) (accAfter m c (t.val - 1) (pred_lt t)) r j).trans ?_
  rw [ih, chunk_eq]
  have hrow : rowOf ⟨t.val - 1, pred_lt t⟩ r = rowOf t r :=
    Fin.ext (by show 512 * ((t.val - 1) / 4) + r.val = 512 * (t.val / 4) + r.val; omega)
  have hk : 512 * ((t.val - 1) % 4) + 512 = 512 * (t.val % 4) := by omega
  rw [hrow, hk]
  exact partialDot_add_chunk _ _ _ _ _

/-- THE INVARIANT, at every point. -/
theorem acc_eq (c : Dev nD) (n : ℕ) : ∀ (h : n < cfg0.N) (r : Fin 512) (j : Fin 2048),
    accAfter m c n h (ix2 r j)
      = partialDot (xarr m c) (warr m c) (rowOf ⟨n, h⟩ r) j (512 * (n % 4) + 512) := by
  induction n with
  | zero => intro h r j; exact acc_eq_first m c ⟨0, h⟩ rfl r j
  | succ n ih =>
    intro h r j
    by_cases h0 : (n + 1) % 4 = 0
    · exact acc_eq_first m c ⟨n + 1, h⟩ h0 r j
    · exact acc_eq_later m c ⟨n + 1, h⟩ h0 r j (ih (Nat.lt_of_succ_lt h) r j)

/-- After a point with k = 3 the output block is the accumulator it leaves, plus the bias row. -/
theorem out_eq_acc (c : Dev nD) (t : Fin cfg0.N) (h1 : t.val % 4 = 3) :
    (outsAt0 m c t.val t.isLt).1 = k0_pay3 (accAfter m c t.val t.isLt) (bblk m c t) := by
  rw [out_at_last m c t h1, ← acc_later m c t (by omega)]

/-- So the output block's entry (r, j) there is the layer's entry (512·i + r, j). -/
theorem out_apply (c : Dev nD) (t : Fin cfg0.N) (h1 : t.val % 4 = 3) (r : Fin 512) (j : Fin 2048) :
    (outsAt0 m c t.val t.isLt).1 (ix2 r j) = layer (xarr m c) (warr m c) (barr m c) (ix2 (rowOf t r) j) := by
  rw [out_eq_acc m c t h1]
  refine (bias_apply (accAfter m c t.val t.isLt) (bblk m c t) r j).trans ?_
  rw [acc_eq m c t.val t.isLt r j, show bblk m c t (ix2 0 j) = barr m c (ix1 j) from bblk_apply m c t j]
  have e : 512 * (t.val % 4) + 512 = 2048 := by omega
  rw [e, partialDot_full]
  rfl

end Cert.KernelIdeal.Layer

end
-- ==== Proof.Result.lean ====
/-
  From blocks to the array. The output's block is written back only after a point with k = 3, and what is written
  back there is the layer's entries on rows 512·i … 512·i + 511 and all 2048 columns. Row R of the array lies in the
  block of point 4·(R / 512) + 3, so these sixteen blocks cover the array, and the result array after the run is the
  layer of the three arguments as launched.
-/
import proofs.«115215_j21251498180729_1_alg».proof.Proof.Acc
import proofs.«115215_j21251498180729_1_alg».proof.Proof.Gen.KernelIdeal.Value

noncomputable section

namespace Cert.KernelIdeal.Layer

open Cert.KernelIdeal Cert.KernelIdeal.Gen Idealize.ShloMosaic Idealize.ShloMosaic.TcCoe Idealize.ShloMosaic.ValueIdx Idealize.SL.Sem
open Idealize.ShloMosaic.Pipeline (Dat)
open Cert.Linear

variable (m : (ℓ : Loc nD τ sig) → Buf (Elt Ideal) ℓ) (ρ : Dev nD → PrngReg)

/-- What the result array holds after the run. -/
abbrev result (c : Dev nD) : Buf (Elt Ideal) ((c : Thread nD τ).loc main_v1) :=
  layer (xarr m c) (warr m c) (barr m c)

/-- What a point with k = 3 writes back is its block of the layer. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  rw [Cert.KernelIdeal.Value.flushed3]
  funext y
  obtain ⟨r, j, rfl⟩ : ∃ (r : Fin 512) (j : Fin 2048), y = ix2 r j := ⟨y 0, y 1, eq_ix2 y⟩
  rw [View.read_apply]
  show (outsAt0 m c t.val t.isLt).1 (ix2 r j) = result m c (((cfg0.win 3).blk t).view.emb (ix2 r j))
  rw [out_apply m c t h1 r j]
  refine congrArg (result m c) ?_
  funext a
  apply Fin.ext
  match a with
  | ⟨0, _⟩ => show 512 * (t.val / 4) + r.val = win0_3.index t 0 * 512 + 1 * r.val; rw [(oblock_at t).1]; omega
  | ⟨1, _⟩ => show j.val = win0_3.index t 1 * 2048 + 1 * j.val; rw [(oblock_at t).2]; omega

/-- Every entry of the array is in the block some point with k = 3 writes back. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 64 := N_0
  let t : Fin cfg0.N := ⟨4 * ((i 0).val / 512) + 3, by rw [hN]; omega⟩
  have ht : t.val = 4 * ((i 0).val / 512) + 3 := rfl
  refine ⟨t, (flush0_3 t).mpr (by rw [ht]; omega), ?_⟩
  show i ∈ ((View.whole main_v1).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(oblock_at t).1, ht]; omega
  | ⟨1, _⟩ =>
    show win0_3.index t 1 * 2048 ≤ (i 1).val ∧ (i 1).val < win0_3.index t 1 * 2048 + 2048
    rw [(oblock_at t).2]; omega

/-- The result array after the run. -/
theorem final (c : Dev nD) : (dats m 0 c).arrAt 3 cfg0.N = result m c :=
  (dats m 0 c).arrAt_eq_of_cover 3 (result m c) (flushed_eq m c) cover

/-- The kernel's run: the result at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Layer

end
-- ==== Proof.lean ====
/-
  The linear layer `out = x · Wᵀ + b` (x : [8192, 2048], W : [2048, 2048], b : [2048]), computed by a kernel that
  walks a 16 × 4 grid — sixteen row blocks of 512 rows, and for each the contracted axis in four chunks of 512 —
  against the same layer computed on the host as one matrix product plus a broadcast bias.

  Over the extended reals the two agree entry by entry. The kernel zeroes an accumulator at a row block's first
  chunk, adds each chunk's block product to it, and after the fourth chunk writes the accumulator plus the bias row
  to the output block; narrowing both operands of the block product to a shorter float format is the identity on
  an extended real. So entry (R, j) of its result is
  `(((0 + s₀) + s₁) + s₂) + s₃ + b j`, with `sₖ = ∑ κ < 512, x (R, 512·k + κ) · W (j, 512·k + κ)`. The host
  transposes `W` and contracts `x`'s second axis with the transposed array's first, so its entry is
  `∑ κ < 2048, x (R, κ) · W (j, κ) + b j`. The running total is the sum's initial segment at every step (sums over
  a finite index set in a commutative additive monoid regroup freely; no entry need be finite, and the
  precondition is not opened).

  The frames of the two kernel programs are the generated ones; the reference's frame is its run with the result
  dropped; the kernel's idealization rewrote nothing.
-/
import proofs.«115215_j21251498180729_1_alg».proof.Defs
import proofs.«115215_j21251498180729_1_alg».proof.Proof.Gen.Kernel
import proofs.«115215_j21251498180729_1_alg».proof.Proof.Gen.Kernel.Skeleton
import proofs.«115215_j21251498180729_1_alg».proof.Proof.Gen.Kernel.Launch
import proofs.«115215_j21251498180729_1_alg».proof.Proof.Gen.Kernel.Points
import proofs.«115215_j21251498180729_1_alg».proof.Proof.Gen.Kernel.Frame
import proofs.«115215_j21251498180729_1_alg».proof.Proof.Gen.KernelIdeal
import proofs.«115215_j21251498180729_1_alg».proof.Proof.Gen.KernelIdeal.Skeleton
import proofs.«115215_j21251498180729_1_alg».proof.Proof.Gen.KernelIdeal.Launch
import proofs.«115215_j21251498180729_1_alg».proof.Proof.Gen.KernelIdeal.Points
import proofs.«115215_j21251498180729_1_alg».proof.Proof.Gen.KernelIdeal.Frame
import proofs.«115215_j21251498180729_1_alg».proof.Proof.Gen.ReferenceIdeal
import proofs.«115215_j21251498180729_1_alg».proof.Proof.Gen.Pre_finite_inputs
import proofs.«115215_j21251498180729_1_alg».proof.Proof.Gen.KernelIdeal.Value
import proofs.«115215_j21251498180729_1_alg».proof.Proof.Gen.ReferenceIdeal.Run
import proofs.«115215_j21251498180729_1_alg».proof.Proof.Gen.ReferenceIdeal.Read
import proofs.«115215_j21251498180729_1_alg».proof.Proof.Linear
import proofs.«115215_j21251498180729_1_alg».proof.Proof.RefLayer
import proofs.«115215_j21251498180729_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of arguments that agree. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Layer.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
